-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x8x64 : Shape := ⟨4, ![1, 512, 8, 64]⟩
abbrev S_ : Shape := ⟨0, ![]⟩

class Facts : Prop where
  bcast_S_S1x512x8x64 : S_.BroadcastsInDim S1x512x8x64 (![] : Fin 0 → Fin S1x512x8x64.rank)
  reducesTo_S1x512x8x64_S_d0_1_2_3 : S1x512x8x64.ReducesTo [0, 1, 2, 3] S_
  h_S_ : 0 < S_.numel

variable [Facts]

def fn {F : FTy → Type} [FloatOps F] (main_arg0 : FVec F S1x512x8x64 .f32) (main_arg1 : FVec F S1x512x8x64 .f32) : IVec S_ 1 :=
  let main_v0 : FVec F S1x512x8x64 .f32 := Host.absf main_arg0
  let main_cst : FVec F S_ .f32 := constant S_ .f32 0x7F800000#32
  let main_v1 : FVec F S1x512x8x64 .f32 := broadcastInDim S1x512x8x64 ![] bcast_S_S1x512x8x64 main_cst
  let main_v2 : IVec S1x512x8x64 1 := cmpf .olt main_v0 main_v1
  let main_c : IVec S_ 1 := constantI S_ 1 1#1
  let main_v3 : IVec S_ 1 := (fun x v => Host.reduce IntOp.andi x v reducesTo_S1x512x8x64_S_d0_1_2_3 h_S_) main_v2 main_c
  let main_v4 : FVec F S1x512x8x64 .f32 := Host.absf main_arg1
  let main_cst_0 : FVec F S_ .f32 := constant S_ .f32 0x7F800000#32
  let main_v5 : FVec F S1x512x8x64 .f32 := broadcastInDim S1x512x8x64 ![] bcast_S_S1x512x8x64 main_cst_0
  let main_v6 : IVec S1x512x8x64 1 := cmpf .olt main_v4 main_v5
  let main_c_1 : IVec S_ 1 := constantI S_ 1 1#1
  let main_v7 : IVec S_ 1 := (fun x v => Host.reduce IntOp.andi x v reducesTo_S1x512x8x64_S_d0_1_2_3 h_S_) main_v6 main_c_1
  let main_v8 : IVec S_ 1 := andi main_v3 main_v7
  main_v8
-- ==== Kernel.lean ====
abbrev S1x512x8x64 : Shape := ⟨4, ![1, 512, 8, 64]⟩
abbrev S512x8x64 : Shape := ⟨3, ![512, 8, 64]⟩
abbrev S8x512x64 : Shape := ⟨3, ![8, 512, 64]⟩
abbrev S8x512x512 : Shape := ⟨3, ![8, 512, 512]⟩
abbrev S1x128x64 : Shape := ⟨3, ![1, 128, 64]⟩
abbrev S1x64x64 : Shape := ⟨3, ![1, 64, 64]⟩
abbrev S1x64x128 : Shape := ⟨3, ![1, 64, 128]⟩
abbrev S128x64 : Shape := ⟨2, ![128, 64]⟩
abbrev S64x64 : Shape := ⟨2, ![64, 64]⟩
abbrev S64x1x64 : Shape := ⟨3, ![64, 1, 64]⟩
abbrev S64x128x64 : Shape := ⟨3, ![64, 128, 64]⟩
abbrev S64x128 : Shape := ⟨2, ![64, 128]⟩
abbrev S1x8x512x512 : Shape := ⟨4, ![1, 8, 512, 512]⟩

abbrev nBuf : Space → Nat
  | .hbm => 8
  | .vmem => 6
  | .smem => 0
  | _ => 0

abbrev bufTy : (tb : Table) → Fin (tcTables nBuf tb) → BufTy
  | .hbm, ⟨0, _⟩ => ⟨S1x512x8x64, .f32⟩
  | .hbm, ⟨1, _⟩ => ⟨S1x512x8x64, .f32⟩
  | .hbm, ⟨2, _⟩ => ⟨S512x8x64, .f32⟩
  | .hbm, ⟨3, _⟩ => ⟨S8x512x64, .f32⟩
  | .hbm, ⟨4, _⟩ => ⟨S512x8x64, .f32⟩
  | .hbm, ⟨5, _⟩ => ⟨S8x512x64, .f32⟩
  | .hbm, ⟨6, _⟩ => ⟨S8x512x512, .f32⟩
  | .hbm, ⟨7, _⟩ => ⟨S1x8x512x512, .f32⟩
  | .local _ .vmem, ⟨0, _⟩ => ⟨S1x128x64, .f32⟩
  | .local _ .vmem, ⟨1, _⟩ => ⟨S1x128x64, .f32⟩
  | .local _ .vmem, ⟨2, _⟩ => ⟨S1x64x64, .f32⟩
  | .local _ .vmem, ⟨3, _⟩ => ⟨S1x64x64, .f32⟩
  | .local _ .vmem, ⟨4, _⟩ => ⟨S1x64x128, .f32⟩
  | .local _ .vmem, ⟨5, _⟩ => ⟨S1x64x128, .f32⟩
  | _, _ => ⟨S1x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  shapeCasts_S1x512x8x64_S512x8x64 : S1x512x8x64.ShapeCasts S512x8x64
  transposes_S512x8x64_S8x512x64_1_0_2 : S512x8x64.Transposes [1, 0, 2] S8x512x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S64x1x64 : S64x64.ShapeCasts S64x1x64
  shapeCasts_S128x64_S1x128x64 : S128x64.ShapeCasts S1x128x64
  broadcasts_S64x1x64_S64x128x64 : S64x1x64.Broadcasts S64x128x64
  broadcasts_S1x128x64_S64x128x64 : S1x128x64.Broadcasts S64x128x64
  reduces_S64x128x64_S64x128 : S64x128x64.Reduces [2] S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  bcast_S8x512x512_S1x8x512x512_1_2_3 : S8x512x512.BroadcastsInDim S1x8x512x512 (![1, 2, 3] : Fin 3 → Fin S1x8x512x512.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64.size a ≤ S8x512x64.size a
  hwx0_0 : ∀ i : grid0.Coords, EltTy.bits .f32 = 32 ∨ (Rect.block (s := S8x512x64) S1x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S8x512x64.size a
  hwx0_1 : ∀ i : grid0.Coords, EltTy.bits .f32 = 32 ∨ (Rect.block (s := S8x512x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S8x512x512.size a
  hwx0_2 : ∀ i : grid0.Coords, EltTy.bits .f32 = 32 ∨ (Rect.block (s := S8x512x512) S1x64x128.size (cc0_transform_2 i) (hinb0_2 i)).WholeWords (EltTy.packing .f32)

variable [Facts₀]

abbrev win0_0 : Pipeline.Window sig grid0 :=
  Pipeline.Window.ofSpec (Memref.whole main_v1) S1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x512x8x64 : Shape := ⟨4, ![1, 512, 8, 64]⟩
abbrev S1x1x512x8x64 : Shape := ⟨5, ![1, 1, 512, 8, 64]⟩
abbrev S1x512x1x8x64 : Shape := ⟨5, ![1, 512, 1, 8, 64]⟩
abbrev S1x512x512x8x64 : Shape := ⟨5, ![1, 512, 512, 8, 64]⟩
abbrev S_ : Shape := ⟨0, ![]⟩
abbrev S1x512x512x8 : Shape := ⟨4, ![1, 512, 512, 8]⟩
abbrev S1x8x512x512 : Shape := ⟨4, ![1, 8, 512, 512]⟩

abbrev nBuf : Space → Nat
  | .hbm => 20
  | .vmem => 0
  | .smem => 0
  | _ => 0

abbrev bufTy : (tb : Table) → Fin (tcTables nBuf tb) → BufTy
  | .hbm, ⟨0, _⟩ => ⟨S1x512x8x64, .f32⟩
  | .hbm, ⟨1, _⟩ => ⟨S1x512x8x64, .f32⟩
  | .hbm, ⟨2, _⟩ => ⟨S1x1x512x8x64, .f32⟩
  | .hbm, ⟨3, _⟩ => ⟨S1x512x1x8x64, .f32⟩
  | .hbm, ⟨4, _⟩ => ⟨S1x512x512x8x64, .f32⟩
  | .hbm, ⟨5, _⟩ => ⟨S1x512x512x8x64, .f32⟩
  | .hbm, ⟨6, _⟩ => ⟨S1x512x512x8x64, .f32⟩
  | .hbm, ⟨7, _⟩ => ⟨S1x512x512x8x64, .f32⟩
  | .hbm, ⟨8, _⟩ => ⟨S_, .f32⟩
  | .hbm, ⟨9, _⟩ => ⟨S1x512x512x8, .f32⟩
  | .hbm, ⟨10, _⟩ => ⟨S_, .f32⟩
  | .hbm, ⟨11, _⟩ => ⟨S1x512x512x8, .f32⟩
  | .hbm, ⟨12, _⟩ => ⟨S1x512x512x8, .f32⟩
  | .hbm, ⟨13, _⟩ => ⟨S1x8x512x512, .f32⟩
  | .hbm, ⟨14, _⟩ => ⟨S_, .f32⟩
  | .hbm, ⟨15, _⟩ => ⟨S1x8x512x512, .f32⟩
  | .hbm, ⟨16, _⟩ => ⟨S1x8x512x512, .f32⟩
  | .hbm, ⟨17, _⟩ => ⟨S_, .f32⟩
  | .hbm, ⟨18, _⟩ => ⟨S1x8x512x512, .f32⟩
  | .hbm, ⟨19, _⟩ => ⟨S1x8x512x512, .f32⟩
  | _, _ => ⟨S1x512x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S1x512x8x64_S1x1x512x8x64_0_2_3_4 : S1x512x8x64.BroadcastsInDim S1x1x512x8x64 (![0, 2, 3, 4] : Fin 4 → Fin S1x1x512x8x64.rank)
  bcast_S1x512x8x64_S1x512x1x8x64_0_1_3_4 : S1x512x8x64.BroadcastsInDim S1x512x1x8x64 (![0, 1, 3, 4] : Fin 4 → Fin S1x512x1x8x64.rank)
  bcast_S1x1x512x8x64_S1x512x512x8x64_0_1_2_3_4 : S1x1x512x8x64.BroadcastsInDim S1x512x512x8x64 (![0, 1, 2, 3, 4] : Fin 5 → Fin S1x512x512x8x64.rank)
  bcast_S1x512x1x8x64_S1x512x512x8x64_0_1_2_3_4 : S1x512x1x8x64.BroadcastsInDim S1x512x512x8x64 (![0, 1, 2, 3, 4] : Fin 5 → Fin S1x512x512x8x64.rank)
  reducesTo_S1x512x512x8x64_S1x512x512x8_d4 : S1x512x512x8x64.ReducesTo [4] S1x512x512x8
  h_S_ : 0 < S_.numel
  bcast_S_S1x512x512x8 : S_.BroadcastsInDim S1x512x512x8 (![] : Fin 0 → Fin S1x512x512x8.rank)
  transposes_S1x512x512x8_S1x8x512x512_0_3_1_2 : S1x512x512x8.Transposes [0, 3, 1, 2] S1x8x512x512
  bcast_S_S1x8x512x512 : S_.BroadcastsInDim S1x8x512x512 (![] : Fin 0 → Fin S1x8x512x512.rank)

variable [Facts₀]

class Facts : Prop extends Facts₀ where

variable [Facts]
-- ==== Proof.Spec.lean ====
/-
  The function both programs compute, stated once over the two argument arrays, and the one law that joins the two
  sides.

  With q, k : [1, 512, 8, 64] (batch, position, head, feature) the result at (0, h, s, t) of [1, 8, 512, 512] is

      1 / (eps + (Σ_w |q[0,t,h,w] − k[0,s,h,w]|) · (1/8)),        eps the float 0.001, w over the 64 features,

  read on the extended reals: the sum is the exact one, |x| is max x (−x), and the quotient is the ideal division.
  One side forms the difference as q − k and the other as k − q; on the extended reals |a − b| = |b − a| holds at
  every pair, the infinities included (each side is ⊤ as soon as one of a, b is infinite), so no finiteness of the
  inputs is needed anywhere.
-/
import Idealize.ShloMosaic.PureOps.Ideal
import Idealize.ShloMosaic.PureOps.Ideal.Laws
import Idealize.ShloMosaic.Lib.ValueIdx

noncomputable section

open scoped BigOperators

namespace Cert.L1Attn

open Idealize.ShloMosaic Idealize.ShloMosaic.ValueIdx

/-- The arguments' shape: batch 1, 512 positions, 8 heads, 64 features. -/
abbrev SArg : Shape := ⟨4, ![1, 512, 8, 64]⟩
/-- The result's shape: batch 1, 8 heads, 512 key positions, 512 query positions. -/
abbrev SRes : Shape := ⟨4, ![1, 8, 512, 512]⟩

/-- The absolute difference of two extended reals, as the ideal instance reads `absf (subf a b)`. -/
def absDiff (a b : EReal) : EReal := max (a - b) (-(a - b))

/-- The absolute difference is symmetric on ALL extended reals: for two reals it is the reals' law; when one of the
    two is infinite both differences are infinite of opposite signs (or both ⊥, for ⊤ − ⊤ and ⊥ − ⊥), and the maximum
    with the negation is ⊤ either way. -/
theorem absDiff_comm (a b : EReal) : absDiff a b = absDiff b a := by
  unfold absDiff
  induction a using EReal.rec with
  | bot =>
    induction b using EReal.rec with
    | bot => rfl
    | coe y => simp
    | top => simp
  | coe x =>
    induction b using EReal.rec with
    | bot => simp
    | coe y =>
      rw [← EReal.coe_sub, ← EReal.coe_sub, ← EReal.coe_neg, ← EReal.coe_neg, neg_sub, neg_sub, max_comm]
    | top => simp
  | top =>
    induction b using EReal.rec with
    | bot => simp
    | coe y => simp
    | top => rfl

/-- The L1 distance of query row `t` and key row `s` of head `h`: the sum over the 64 features of the absolute
    differences. -/
def l1 (q k : SArg.Idx → EReal) (h : Fin 8) (s t : Fin 512) : EReal :=
  ∑ w : Fin 64, absDiff (q (ix4 0 t h w)) (k (ix4 0 s h w))

/-- One score: the reciprocal of eps plus an eighth of the distance. The three float literals stay as their words
    (1.0, 0.001 rounded to f32, 0.125): both programs carry the same three. -/
def score (q k : SArg.Idx → EReal) (h : Fin 8) (s t : Fin 512) : EReal :=
  Ideal.div (Ideal.ofBits .f32 0x3F800000#32)
    (Ideal.ofBits .f32 0x3A83126F#32 + l1 q k h s t * Ideal.ofBits .f32 0x3E000000#32)

/-- The whole result array: at (b, h, s, t) the score of head `h`, key `s`, query `t`. -/
def attn (q k : SArg.Idx → EReal) : SRes.Idx → EReal := fun i => score q k (i 1) (i 2) (i 3)

end Cert.L1Attn

end
-- ==== Proof.RefValue.lean ====
/-
  The reference program's result, read element by element, is the specification `attn` of its two arguments.

  The reference broadcasts q along a new key axis and k along a new query axis to [1, 512, 512, 8, 64]
  (batch, key s, query t, head h, feature w), subtracts (q − k), takes absolute values, sums the feature axis from 0,
  multiplies by 1/8, moves the head axis to the front, adds eps from the left and divides 1 by the result. Chasing
  one result index (b, h, s, t) back through the layout steps lands on q[0, t, h, w] and k[0, s, h, w].
-/
import proofs.«178516_j12670153523838_1_alg».proof.Proof.Gen.ReferenceIdeal.Read
import proofs.«178516_j12670153523838_1_alg».proof.Proof.Spec

noncomputable section

open scoped BigOperators

namespace Cert.L1Attn.Ref

open Cert.ReferenceIdeal Cert.ReferenceIdeal.Read Idealize.ShloMosaic Idealize.ShloMosaic.ValueIdx Cert.L1Attn

/-- The query element under result index (b, h, s, t) and feature w: the two broadcasts, the sum's inserted axis and
    the transpose compose to (0, t, h, w). -/
theorem q_index (b : Fin 1) (h : Fin 8) (s t : Fin 512) (w : Fin 64) :
    idx_main_v0 (idx_main_v2 (idx_main_v6 (idx_main_v9 (ix4 b h s t)) w)) = ix4 0 t h w :=
  funext fun a => Fin.ext (by match a with | ⟨0, _⟩ => rfl | ⟨1, _⟩ => rfl | ⟨2, _⟩ => rfl | ⟨3, _⟩ => rfl)

/-- The key element under the same index: (0, s, h, w). -/
theorem k_index (b : Fin 1) (h : Fin 8) (s t : Fin 512) (w : Fin 64) :
    idx_main_v1 (idx_main_v3 (idx_main_v6 (idx_main_v9 (ix4 b h s t)) w)) = ix4 0 s h w :=
  funext fun a => Fin.ext (by match a with | ⟨0, _⟩ => rfl | ⟨1, _⟩ => rfl | ⟨2, _⟩ => rfl | ⟨3, _⟩ => rfl)

/-- The reference's last stage is `attn` of the arguments. -/
theorem val_eq_attn (q k : SArg.Idx → EReal) : val_main_v13 (F := Ideal) q k = attn q k := by
  funext i
  obtain ⟨b, h, s, t, rfl⟩ : ∃ (b : Fin 1) (h : Fin 8) (s t : Fin 512), i = ix4 b h s t :=
    ⟨i 0, i 1, i 2, i 3, eq_ix4 i⟩
  rw [val_main_v13_apply, val_main_v12_apply, val_main_cst_2_apply, val_main_v11_apply, val_main_v10_apply,
    val_main_cst_1_apply, val_main_v9_apply, val_main_v8_apply, val_main_v7_apply, val_main_cst_0_apply,
    val_main_v6_apply, val_main_cst_apply]
  simp only [val_main_v5_apply, val_main_v4_apply, val_main_v2_apply, val_main_v3_apply, val_main_v0_apply,
    val_main_v1_apply, q_index, k_index, Ideal.hostDivf_def, Ideal.addf_def, Ideal.mulf_def, Ideal.ofBits_def,
    Ideal.hostAbsf_def, Ideal.absf_def, Ideal.subf_def, Ideal.ofBits_zero_f32, zero_add]
  rfl

end Cert.L1Attn.Ref

end
-- ==== Proof.Body.lean ====
/-
  The kernel body's stored value, read at one element.

  At a grid point the body holds a block of 128 query rows `x0 : [1, 128, 64]` and a block of 64 key rows
  `x1 : [1, 64, 64]` (rows by features). It lays the keys out as [64, 1, 64] and the queries as [1, 128, 64], broadcasts
  both to [64, 128, 64] (key row, query row, feature), subtracts (key − query), takes absolute values, sums the feature
  axis, multiplies by 1/8, adds eps from the left, divides 1 by the result and stores the [64, 128] tile as [1, 64, 128].
  So element (0, s, t) of what it stores is 1 / (eps + (Σ_w |x1[0,s,w] − x0[0,t,w]|) · (1/8)).
-/
import proofs.«178516_j12670153523838_1_alg».proof.Proof.Gen.KernelIdeal.Skeleton
import proofs.«178516_j12670153523838_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.L1Attn.Body

open Cert.KernelIdeal Cert.KernelIdeal.Gen Idealize.ShloMosaic Idealize.ShloMosaic.ValueIdx Cert.L1Attn

/-- The key block, re-laid as [64, 1, 64] and broadcast along the query axis, at (s, t, w) is key row s, feature w. -/
theorem keys_at (x1 : FVec Ideal S1x64x64 .f32) (s : Fin 64) (t : Fin 128) (w : Fin 64) :
    broadcastTo S64x128x64 (shapeCast S64x1x64 (shapeCast S64x64 x1 shapeCasts_S1x64x64_S64x64) shapeCasts_S64x64_S64x1x64)
      broadcasts_S64x1x64_S64x128x64 (ix3 s t w) = x1 (ix3 0 s w) := by
  refine (broadcastTo_apply _ broadcasts_S64x1x64_S64x128x64 (ix3 s t w) (ix3 s 0 w) (fun a => ?_)).trans ?_
  · match a with
    | ⟨0, _⟩ => show s.val = if (64 : Nat) = 1 then 0 else s.val; rw [if_neg (by decide)]
    | ⟨1, _⟩ => show 0 = if (1 : Nat) = 1 then 0 else t.val; rw [if_pos rfl]
    | ⟨2, _⟩ => show w.val = if (64 : Nat) = 1 then 0 else w.val; rw [if_neg (by decide)]
  refine (shapeCast_apply _ shapeCasts_S64x64_S64x1x64 (ix3 s 0 w) (ix2 s w) ?_).trans ?_
  · rw [Shape.rowMajor_val_two, Shape.rowMajor_val_three]
    show s.val * 64 + w.val = (s.val * 1 + 0) * 64 + w.val
    omega
  exact shapeCast_1ab_ab_apply x1 shapeCasts_S1x64x64_S64x64 s w

/-- The query block, cast to [128, 64] and back and broadcast along the key axis, at (s, t, w) is query row t,
    feature w. -/
theorem queries_at (x0 : FVec Ideal S1x128x64 .f32) (s : Fin 64) (t : Fin 128) (w : Fin 64) :
    broadcastTo S64x128x64 (shapeCast S1x128x64 (shapeCast S128x64 x0 shapeCasts_S1x128x64_S128x64) shapeCasts_S128x64_S1x128x64)
      broadcasts_S1x128x64_S64x128x64 (ix3 s t w) = x0 (ix3 0 t w) := by
  refine (broadcastTo_apply _ broadcasts_S1x128x64_S64x128x64 (ix3 s t w) (ix3 0 t w) (fun a => ?_)).trans ?_
  · match a with
    | ⟨0, _⟩ => show 0 = if (1 : Nat) = 1 then 0 else s.val; rw [if_pos rfl]
    | ⟨1, _⟩ => show t.val = if (128 : Nat) = 1 then 0 else t.val; rw [if_neg (by decide)]
    | ⟨2, _⟩ => show w.val = if (64 : Nat) = 1 then 0 else w.val; rw [if_neg (by decide)]
  refine (shapeCast_ab_1ab_apply _ shapeCasts_S128x64_S1x128x64 0 t w).trans ?_
  exact shapeCast_1ab_ab_apply x0 shapeCasts_S1x128x64_S128x64 t w

/-- The feature sum's inserted index: (s, t) with feature w put on the last axis is (s, t, w). -/
theorem lift_eq (s : Fin 64) (t : Fin 128) (w : Fin 64) :
    reduces_S64x128x64_S64x128.lift (ix2 s t) w = ix3 s t w :=
  funext fun a => Fin.ext (by match a with | ⟨0, _⟩ => rfl | ⟨1, _⟩ => rfl | ⟨2, _⟩ => rfl)

/-- The summed absolute differences at (s, t): the lane sum is the plain sum over the 64 features, and each summand is
    |key[s,w] − query[t,w]|. -/
theorem dist_at (x0 : FVec Ideal S1x128x64 .f32) (x1 : FVec Ideal S1x64x64 .f32) (s : Fin 64) (t : Fin 128) :
    multiReduction .add [2] S64x128
        (absf (subf
          (broadcastTo S64x128x64 (shapeCast S64x1x64 (shapeCast S64x64 x1 shapeCasts_S1x64x64_S64x64) shapeCasts_S64x64_S64x1x64)
            broadcasts_S64x1x64_S64x128x64)
          (broadcastTo S64x128x64 (shapeCast S1x128x64 (shapeCast S128x64 x0 shapeCasts_S1x128x64_S128x64) shapeCasts_S128x64_S1x128x64)
            broadcasts_S1x128x64_S64x128x64)))
        0x00000000#32 reduces_S64x128x64_S64x128 (.inl rfl) rfl (ix2 s t)
      = ∑ w : Fin 64, absDiff (x1 (ix3 0 s w)) (x0 (ix3 0 t w)) := by
  refine (Ideal.multiReduction_add_single _ 0x00000000#32 reduces_S64x128x64_S64x128 (.inl rfl) rfl (ix2 s t)).trans ?_
  show ∑ w : Fin 64, _ = _
  refine Finset.sum_congr rfl fun (w : Fin 64) _ => ?_
  rw [lift_eq s t w]
  show max (_ - _) (-(_ - _)) = _
  rw [keys_at, queries_at]
  rfl

/-- THE STORED TILE AT AN ELEMENT: 1 / (eps + (Σ_w |key[s,w] − query[t,w]|) · (1/8)). -/
theorem stored_at (x0 : FVec Ideal S1x128x64 .f32) (x1 : FVec Ideal S1x64x64 .f32) (u : Fin 1) (s : Fin 64) (t : Fin 128) :
    k0_pay1 (F := Ideal) x0 x1 (ix3 u s t)
      = Ideal.div (Ideal.ofBits .f32 0x3F800000#32)
          (Ideal.ofBits .f32 0x3A83126F#32
            + (∑ w : Fin 64, absDiff (x1 (ix3 0 s w)) (x0 (ix3 0 t w))) * Ideal.ofBits .f32 0x3E000000#32) := by
  unfold k0_pay1
  refine (shapeCast_ab_1ab_apply _ shapeCasts_S64x128_S1x64x128 u s t).trans ?_
  exact congrArg (fun z => Ideal.div (Ideal.ofBits .f32 0x3F800000#32)
      (Ideal.ofBits .f32 0x3A83126F#32 + z * Ideal.ofBits .f32 0x3E000000#32)) (dist_at x0 x1 s t)

end Cert.L1Attn.Body

end
-- ==== Proof.KernelValue.lean ====
/-
  The kernel program's result array as `attn` of its two arguments.

  Before the region @main lays each argument out head-major: [1, 512, 8, 64] is read as [512, 8, 64] and transposed to
  [8, 512, 64], so head-major element (h, p, w) is argument element (0, p, h, w). The region runs over the grid
  8 × 8 × 4 (head, key tile of 64, query tile of 128); point t stores the [64, 128] tile of scores of key rows
  64·si … and query rows 128·ti … of head h, and the 256 tiles fill the [8, 512, 512] array exactly. After the region a
  leading unit axis is put in front: result element (b, h, s, t) is array element (h, s, t).
-/
import proofs.«178516_j12670153523838_1_alg».proof.Proof.Gen.KernelIdeal.Frame
import proofs.«178516_j12670153523838_1_alg».proof.Proof.Body
import Idealize.ShloMosaic.Lib.Pipeline.Value
import Idealize.ShloMosaic.Lib.StableHlo.Run

set_option maxRecDepth 16384

noncomputable section

open scoped BigOperators

namespace Cert.L1Attn.KernelValue

open Cert.KernelIdeal Cert.KernelIdeal.Gen Idealize.ShloMosaic Idealize.ShloMosaic.TcCoe Idealize.SL.Sem
open Idealize.ShloMosaic.ValueIdx Cert.L1Attn
open Idealize.ShloMosaic.Pipeline (Dat)

variable (m : (ℓ : Loc nD τ sig) → Buf (Elt Ideal) ℓ) (ρ : Dev nD → PrngReg)

/-- The score array over head-major operands `qh`, `kh : [8, 512, 64]`: at (h, s, t) the reciprocal of eps plus an
    eighth of the L1 distance of key row s and query row t of head h. -/
def scores (qh kh : S8x512x64.Idx → EReal) : S8x512x512.Idx → EReal := fun i =>
  Ideal.div (Ideal.ofBits .f32 0x3F800000#32)
    (Ideal.ofBits .f32 0x3A83126F#32
      + (∑ w : Fin 64, absDiff (kh (ix3 (i 0) (i 1) w)) (qh (ix3 (i 0) (i 2) w))) * Ideal.ofBits .f32 0x3E000000#32)

theorem zero_offsets : (![0, 0, 0] : Fin 3 → Nat) = fun _ => 0 := funext fun a => by fin_cases a <;> rfl

/-- The three windows' block indices at grid point t, decided over the 256 points: the head is t / 32, the key tile
    t / 4 mod 8, the query tile t mod 4; the query window follows (head, query tile), the key window (head, key tile),
    the output window all three. -/
theorem index_facts : ∀ t : Fin cfg0.N,
    win0_0.index t (0 : Fin 3) = t.val / 32 ∧ win0_0.index t (1 : Fin 3) = t.val % 4 ∧ win0_0.index t (2 : Fin 3) = 0
    ∧ win0_1.index t (0 : Fin 3) = t.val / 32 ∧ win0_1.index t (1 : Fin 3) = t.val / 4 % 8 ∧ win0_1.index t (2 : Fin 3) = 0
    ∧ win0_2.index t (0 : Fin 3) = t.val / 32 ∧ win0_2.index t (1 : Fin 3) = t.val / 4 % 8
    ∧ win0_2.index t (2 : Fin 3) = t.val % 4 :=
  (by decide +kernel : ∀ t : Fin grid0.N, _)

/-- WHAT POINT t WRITES BACK is block t of `scores` of the two head-major arrays as the region finds them. -/
theorem flushed_eq (c : Dev nD) (t : Fin cfg0.N) :
    (dats m 0 c).flushed 2 t
      = ((cfg0.win 2).blk t).view.read (Elt Ideal) (scores (V m c main_v1) (V m c main_v3)) := by
  show (cfg0.win 2).cut (grid0.coords t) ((dats m 0 c).after 2 t) = _
  rw [after0_2]
  unfold out0_2
  rw [View.canon_unit_zero zero_offsets]
  simp only [View.ld_unit_zero (S := S1x128x64) zero_offsets, View.ld_unit_zero (S := S1x64x64) zero_offsets]
  obtain ⟨q0, q1, q2, k0, k1, k2, o0, o1, o2⟩ := index_facts t
  funext j
  obtain ⟨u, s, r, rfl⟩ : ∃ (u : Fin 1) (s : Fin 64) (r : Fin 128), j = ix3 u s r := ⟨j 0, j 1, j 2, eq_ix3 j⟩
  show k0_pay1 (F := Ideal) (iblk m c 0 t) (iblk m c 1 t) (ix3 u s r)
      = scores (V m c main_v1) (V m c main_v3) (((cfg0.win 2).blk t).view.emb (ix3 u s r))
  refine (Body.stored_at (iblk m c 0 t) (iblk m c 1 t) u s r).trans ?_
  unfold scores
  refine congrArg (fun z => Ideal.div (Ideal.ofBits .f32 0x3F800000#32)
    (Ideal.ofBits .f32 0x3A83126F#32 + z * Ideal.ofBits .f32 0x3E000000#32)) (Finset.sum_congr rfl fun w _ => ?_)
  show absDiff (V m c main_v3 (((cfg0.win 1).blk t).view.emb (ix3 0 s w)))
      (V m c main_v1 (((cfg0.win 0).blk t).view.emb (ix3 0 r w))) = _
  have hu : u.val = 0 := by omega
  have hk : ((cfg0.win 1).blk t).view.emb (ix3 0 s w)
      = ix3 ((((cfg0.win 2).blk t).view.emb (ix3 u s r)) 0) ((((cfg0.win 2).blk t).view.emb (ix3 u s r)) 1) w := by
    funext a; apply Fin.ext
    match a with
    | ⟨0, _⟩ => show win0_1.index t (0 : Fin 3) * 1 + 1 * 0 = win0_2.index t (0 : Fin 3) * 1 + 1 * u.val; omega
    | ⟨1, _⟩ => show win0_1.index t (1 : Fin 3) * 64 + 1 * s.val = win0_2.index t (1 : Fin 3) * 64 + 1 * s.val; omega
    | ⟨2, _⟩ => show win0_1.index t (2 : Fin 3) * 64 + 1 * w.val = w.val; omega
  have hq : ((cfg0.win 0).blk t).view.emb (ix3 0 r w)
      = ix3 ((((cfg0.win 2).blk t).view.emb (ix3 u s r)) 0) ((((cfg0.win 2).blk t).view.emb (ix3 u s r)) 2) w := by
    funext a; apply Fin.ext
    match a with
    | ⟨0, _⟩ => show win0_0.index t (0 : Fin 3) * 1 + 1 * 0 = win0_2.index t (0 : Fin 3) * 1 + 1 * u.val; omega
    | ⟨1, _⟩ => show win0_0.index t (1 : Fin 3) * 128 + 1 * r.val = win0_2.index t (2 : Fin 3) * 128 + 1 * r.val; omega
    | ⟨2, _⟩ => show win0_0.index t (2 : Fin 3) * 64 + 1 * w.val = w.val; omega
  rw [hk, hq]
  rfl

/-- An index of the array is in point t's block iff each coordinate is in the block's range on its axis. -/
theorem mem_blk (t : Fin cfg0.N) (i : S8x512x512.Idx) :
    i ∈ ((cfg0.win 2).blk t).view.set ↔ ∀ a : Fin 3, win0_2.index t a * S1x64x128.size a ≤ (i a).val
      ∧ (i a).val < win0_2.index t a * S1x64x128.size a + S1x64x128.size a := by
  show i ∈ ((View.whole main_v4).slice (win0_2.rect t)).set ↔ _
  rw [View.set_slice_whole, Rect.mem_set_unit]
  exact Iff.rfl

/-- THE TILES FILL THE ARRAY: index (h, s, t) lies in the block of the point (h, s / 64, t / 128). -/
theorem covered (i : S8x512x512.Idx) :
    ∃ t : Fin cfg0.N, (cfg0.win 2).flush t = true ∧ i ∈ ((cfg0.win 2).blk t).view.set := by
  have h0 : (i 0).val < 8 := (i 0).isLt
  have h1 : (i 1).val < 512 := (i 1).isLt
  have h2 : (i 2).val < 512 := (i 2).isLt
  have hN : grid0.N = 256 := N_0
  obtain ⟨t, ht⟩ : ∃ t : Fin cfg0.N, t.val = (i 0).val * 32 + (i 1).val / 64 * 4 + (i 2).val / 128 :=
    ⟨⟨(i 0).val * 32 + (i 1).val / 64 * 4 + (i 2).val / 128, by show _ < grid0.N; omega⟩, rfl⟩
  obtain ⟨-, -, -, -, -, -, o0, o1, o2⟩ := index_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 128 ≤ (i 2).val ∧ (i 2).val < win0_2.index t (2 : Fin 3) * 128 + 128; omega

/-- THE ARRAY after the region is `scores` of the two head-major arrays. -/
theorem final (c : Dev nD) : (dats m 0 c).arrAt 2 cfg0.N = scores (V m c main_v1) (V m c main_v3) :=
  (dats m 0 c).arrAt_eq_of_cover 2 (scores (V m c main_v1) (V m c main_v3)) (fun t _ => flushed_eq m c t) covered

/-- The head-major query array is the first argument re-laid. -/
theorem qh_eq (c : Dev nD) : (V m c main_v1 : S8x512x64.Idx → EReal)
    = transpose S8x512x64 [1, 0, 2] (shapeCast S512x8x64 (m ((c : Thread nD τ).loc main_arg0)) shapeCasts_S1x512x8x64_S512x8x64)
        transposes_S512x8x64_S8x512x64_1_0_2 := by
  show StableHlo.after hostOps0 (fun b => m (c, b)) (Proc.devRef .tc main_v1) = _
  after_results
  rfl

/-- The head-major key array is the second argument re-laid. -/
theorem kh_eq (c : Dev nD) : (V m c main_v3 : S8x512x64.Idx → EReal)
    = transpose S8x512x64 [1, 0, 2] (shapeCast S512x8x64 (m ((c : Thread nD τ).loc main_arg1)) shapeCasts_S1x512x8x64_S512x8x64)
        transposes_S512x8x64_S8x512x64_1_0_2 := by
  show StableHlo.after hostOps0 (fun b => m (c, b)) (Proc.devRef .tc main_v3) = _
  after_results
  rfl

/-- An argument re-laid head-major, at (h, p, w), is the argument at (0, p, h, w). -/
theorem headMajor_at (x : SArg.Idx → EReal) (h : Fin 8) (p : Fin 512) (w : Fin 64) :
    transpose S8x512x64 [1, 0, 2] (shapeCast S512x8x64 x shapeCasts_S1x512x8x64_S512x8x64)
      transposes_S512x8x64_S8x512x64_1_0_2 (ix3 h p w) = x (ix4 0 p h w) := by
  refine (transpose_apply [1, 0, 2] _ transposes_S512x8x64_S8x512x64_1_0_2 (ix3 h p w) (ix3 p h w)
    (fun b => match b with | ⟨0, _⟩ => rfl | ⟨1, _⟩ => rfl | ⟨2, _⟩ => rfl)).trans ?_
  exact shapeCast_1abc_abc_apply x shapeCasts_S1x512x8x64_S512x8x64 p h w

/-- `scores` of the two re-laid arguments, at (h, s, t), is the specification's score of head h, key s, query t:
    the kernel's |k − q| is the specification's |q − k|. -/
theorem scores_at (c : Dev nD) (h : Fin 8) (s t : Fin 512) :
    scores (V m c main_v1) (V m c main_v3) (ix3 h s t)
      = score (m ((c : Thread nD τ).loc main_arg0)) (m ((c : Thread nD τ).loc main_arg1)) h s t := by
  unfold scores score l1
  refine congrArg (fun z => Ideal.div (Ideal.ofBits .f32 0x3F800000#32)
    (Ideal.ofBits .f32 0x3A83126F#32 + z * Ideal.ofBits .f32 0x3E000000#32)) (Finset.sum_congr rfl fun w _ => ?_)
  show absDiff (V m c main_v3 (ix3 h s w)) (V m c main_v1 (ix3 h t w)) = _
  rw [kh_eq, qh_eq, headMajor_at, headMajor_at, absDiff_comm]

/-- WHAT @main's RESULT HOLDS once the lines after the region have run: `attn` of the two arguments. -/
theorem result_eq (c : Dev nD) :
    Pipeline.afterTail₀ cfgs (dats m) 0 (V0 m) [hostOps1] c main_v5
      = attn (m ((c : Thread nD τ).loc main_arg0)) (m ((c : Thread nD τ).loc main_arg1)) := by
  unfold Pipeline.afterTail₀
  show StableHlo.after hostOps1 _ (Proc.devRef .tc main_v5) = _
  after_results
  have harr : Pipeline.withArrays (cfgs 0).spec c (V0 m c) (fun w => (dats m 0 c).arrAt w (cfgs 0).N)
      (Proc.devRef .tc main_v4) = scores (V m c main_v1) (V m c main_v3) :=
    (Pipeline.withArrays_arr spec0 launch0.win.arr_inj c _ _ 2).trans (final m c)
  rw [harr]
  funext i
  obtain ⟨b, h, s, t, rfl⟩ : ∃ (b : Fin 1) (h : Fin 8) (s t : Fin 512), i = ix4 b h s t :=
    ⟨i 0, i 1, i 2, i 3, eq_ix4 i⟩
  refine (broadcastInDim_apply ![1, 2, 3] bcast_S8x512x512_S1x8x512x512_1_2_3 _ (ix4 b h s t) (ix3 h s t)
    (fun a => ?_)).trans ?_
  · match a with
    | ⟨0, _⟩ => show h.val = if (8 : Nat) = 1 then 0 else h.val; rw [if_neg (by decide)]
    | ⟨1, _⟩ => show s.val = if (512 : Nat) = 1 then 0 else s.val; rw [if_neg (by decide)]
    | ⟨2, _⟩ => show t.val = if (512 : Nat) = 1 then 0 else t.val; rw [if_neg (by decide)]
  exact scores_at m c h s t

/-- THE KERNEL PROGRAM'S RUN, read: every weakly fair execution terminates with the result array at `attn` of the
    arguments and the arguments unchanged. -/
theorem run : θ_run defs (onTc (τ := τ) (main (F := Ideal))) ⟨m, fun _ => 0, ρ⟩ fun r => ∀ c : Dev nD,
      r.2.mem ((c.tc : Thread nD τ).loc main_v5)
        = attn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.L1Attn.KernelValue

end
-- ==== Proof.lean ====
/-
  The certificate's claim: the kernel program, its idealization and the reference's idealization all run to the end
  with their arguments unchanged, and at the ideal instance the last two end with the same result array.

  Both idealized programs compute, at result index (0, h, s, t),

      1 / (eps + (Σ_w |q[0,t,h,w] − k[0,s,h,w]|) · (1/8))      (`Cert.L1Attn.attn`, Proof/Spec.lean).

  The reference does so directly (Proof/RefValue.lean). The kernel program lays q and k out head-major, runs a grid of
  8 × 8 × 4 tiles each storing a [64, 128] tile of scores (Proof/Body.lean: one tile at an element), and puts a unit
  axis in front of the [8, 512, 512] array the tiles fill (Proof/KernelValue.lean). The kernel forms |k − q| where the
  reference forms |q − k|: equal on the extended reals, at the infinities too, so the precondition is never opened.
  The idealization rewrote no operation, so the preservation claim has nothing to state.
-/
import proofs.«178516_j12670153523838_1_alg».proof.Defs
import proofs.«178516_j12670153523838_1_alg».proof.Proof.Gen.Kernel
import proofs.«178516_j12670153523838_1_alg».proof.Proof.Gen.Kernel.Skeleton
import proofs.«178516_j12670153523838_1_alg».proof.Proof.Gen.Kernel.Launch
import proofs.«178516_j12670153523838_1_alg».proof.Proof.Gen.Kernel.Points
import proofs.«178516_j12670153523838_1_alg».proof.Proof.Gen.Kernel.Frame
import proofs.«178516_j12670153523838_1_alg».proof.Proof.Gen.KernelIdeal
import proofs.«178516_j12670153523838_1_alg».proof.Proof.Gen.KernelIdeal.Skeleton
import proofs.«178516_j12670153523838_1_alg».proof.Proof.Gen.KernelIdeal.Launch
import proofs.«178516_j12670153523838_1_alg».proof.Proof.Gen.KernelIdeal.Points
import proofs.«178516_j12670153523838_1_alg».proof.Proof.Gen.KernelIdeal.Frame
import proofs.«178516_j12670153523838_1_alg».proof.Proof.Gen.ReferenceIdeal
import proofs.«178516_j12670153523838_1_alg».proof.Proof.Gen.ReferenceIdeal.Run
import proofs.«178516_j12670153523838_1_alg».proof.Proof.Gen.ReferenceIdeal.Read
import proofs.«178516_j12670153523838_1_alg».proof.Proof.Gen.Pre_finite_inputs
import proofs.«178516_j12670153523838_1_alg».proof.Proof.Spec
import proofs.«178516_j12670153523838_1_alg».proof.Proof.RefValue
import proofs.«178516_j12670153523838_1_alg».proof.Proof.Body
import proofs.«178516_j12670153523838_1_alg».proof.Proof.KernelValue
import Idealize.ShloMosaic.Adequacy
import Idealize.ShloMosaic.Init

noncomputable section

namespace Cert.Proof

open Idealize.ShloMosaic Idealize.ShloMosaic.TcCoe Idealize.SL.Sem

/-- The kernel program as printed runs to the end with its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's idealization runs to the end with its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the ideal instance, from memories that agree on q and k, both programs end with the result array at
    `attn q k`: the kernel program by its run read tile by tile, the reference by its run read operation by
    operation. -/
theorem algebraic : Cert.algebraic_KernelIdeal_ReferenceIdeal := by
  intro m ρ m' ρ' _ hagree
  refine ⟨fun c => Cert.L1Attn.attn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.L1Attn.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.L1Attn.Ref.val_eq_attn, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
